-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S16777216x2 .f32) (main_arg1 : IVec S16777216 32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  let main_c_0 : IVec S_ 32 := constantI S_ 32 0#32
  let main_v4 : IVec S16777216 32 := broadcastInDim S16777216 ![] bcast_S_S16777216 main_c_0
  let main_v5 : IVec S16777216 1 := cmpi .sge main_arg1 main_v4
  let main_c_1 : IVec S_ 32 := constantI S_ 32 2#32
  let main_v6 : IVec S16777216 32 := broadcastInDim S16777216 ![] bcast_S_S16777216 main_c_1
  let main_v7 : IVec S16777216 1 := cmpi .slt main_arg1 main_v6
  let main_v8 : IVec S16777216 1 := andi main_v5 main_v7
  let main_c_2 : IVec S_ 1 := constantI S_ 1 1#1
  let main_v9 : IVec S_ 1 := (fun x v => Host.reduce IntOp.andi x v reducesTo_S16777216_S_d0 h_S_) main_v8 main_c_2
  let main_v10 : IVec S_ 1 := andi main_v3 main_v9
  main_v10
-- ==== Kernel.lean ====
abbrev S16777216x2 : Shape := ⟨2, ![16777216, 2]⟩
abbrev S16777216 : Shape := ⟨1, ![16777216]⟩
abbrev S1x1 : Shape := ⟨2, ![1, 1]⟩
abbrev S4096x2 : Shape := ⟨2, ![4096, 2]⟩
abbrev S4096 : Shape := ⟨1, ![4096]⟩
abbrev S4096x1 : Shape := ⟨2, ![4096, 1]⟩
abbrev S1x4096 : Shape := ⟨2, ![1, 4096]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S1x1, .f32⟩
  | .hbm, ⟨3, _⟩ => ⟨S_, .f32⟩
  | .local _ .vmem, ⟨0, _⟩ => ⟨S4096x2, .f32⟩
  | .local _ .vmem, ⟨1, _⟩ => ⟨S4096x2, .f32⟩
  | .local _ .vmem, ⟨2, _⟩ => ⟨S4096, .i32⟩
  | .local _ .vmem, ⟨3, _⟩ => ⟨S4096, .i32⟩
  | .local _ .vmem, ⟨4, _⟩ => ⟨S1x1, .f32⟩
  | .local _ .vmem, ⟨5, _⟩ => ⟨S1x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4096], ![false]⟩

def k0_cond2 (i : grid0.Coords) : BitVec 1 :=
  let arg0 : BitVec 32 := BitVec.ofNat 32 (i 0).val
  let c4095_i32 : BitVec 32 := 4095#32
  let v48 : BitVec 1 := Scalar.cmpi .eq arg0 c4095_i32
  let v49 : BitVec 32 := Scalar.extui v48
  let c0_i32_15 : BitVec 32 := 0#32
  let v50 : BitVec 1 := Scalar.cmpi .ne v49 c0_i32_15
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x2_S4096x2_0_0 : ∀ a, (![0, 0] : Fin 2 → Nat) a + S4096x2.size a ≤ S4096x2.size a
  h_S4096x2 : 0 < S4096x2.numel
  reduces_S4096x2_S4096 : S4096x2.Reduces [1] S4096
  shapeCasts_S4096_S4096x1 : S4096.ShapeCasts S4096x1
  broadcasts_S4096x1_S4096x2 : S4096x1.Broadcasts S4096x2
  slices_S4096x2_o0_0_S4096x1 : S4096x2.Slices ![0, 0] S4096x1
  shapeCasts_S4096x1_S4096 : S4096x1.ShapeCasts S4096
  slices_S4096x2_o0_1_S4096x1 : S4096x2.Slices ![0, 1] S4096x1
  inb_S4096_S4096_0 : ∀ a, (![0] : Fin 1 → Nat) a + S4096.size a ≤ S4096.size a
  h_S4096 : 0 < S4096.numel
  shapeCasts_S4096_S1x4096 : S4096.ShapeCasts S1x4096
  reduces_S1x4096_S1 : S1x4096.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S16777216x2.size a
  hwx0_0 : ∀ i : grid0.Coords, EltTy.bits .f32 = 32 ∨ (Rect.block (s := S16777216x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S16777216.size a
  hwx0_1 : ∀ i : grid0.Coords, EltTy.bits .i32 = 32 ∨ (Rect.block (s := S16777216) S4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216x2 : Shape := ⟨2, ![16777216, 2]⟩
abbrev S16777216 : Shape := ⟨1, ![16777216]⟩
abbrev S2 : Shape := ⟨1, ![2]⟩
abbrev S_ : Shape := ⟨0, ![]⟩
abbrev S16777216x1 : Shape := ⟨2, ![16777216, 1]⟩

abbrev nBuf : Space → Nat
  | .hbm => 60
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S2, .f32⟩
  | .hbm, ⟨3, _⟩ => ⟨S_, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S16777216x1, .f32⟩
  | .hbm, ⟨9, _⟩ => ⟨S16777216x2, .f32⟩
  | .hbm, ⟨10, _⟩ => ⟨S16777216x2, .f32⟩
  | .hbm, ⟨11, _⟩ => ⟨S16777216x2, .f32⟩
  | .hbm, ⟨12, _⟩ => ⟨S_, .f32⟩
  | .hbm, ⟨13, _⟩ => ⟨S16777216, .f32⟩
  | .hbm, ⟨14, _⟩ => ⟨S16777216x1, .f32⟩
  | .hbm, ⟨15, _⟩ => ⟨S16777216x1, .f32⟩
  | .hbm, ⟨16, _⟩ => ⟨S16777216x2, .f32⟩
  | .hbm, ⟨17, _⟩ => ⟨S16777216x2, .f32⟩
  | .hbm, ⟨18, _⟩ => ⟨S16777216, .i32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .i32⟩
  | .hbm, ⟨23, _⟩ => ⟨S16777216, .i32⟩
  | .hbm, ⟨24, _⟩ => ⟨S16777216, .i32⟩
  | .hbm, ⟨25, _⟩ => ⟨S16777216, .i32⟩
  | .hbm, ⟨26, _⟩ => ⟨S_, .i32⟩
  | .hbm, ⟨27, _⟩ => ⟨S16777216, .i32⟩
  | .hbm, ⟨28, _⟩ => ⟨S16777216, .i1⟩
  | .hbm, ⟨29, _⟩ => ⟨S_, .i32⟩
  | .hbm, ⟨30, _⟩ => ⟨S16777216, .i32⟩
  | .hbm, ⟨31, _⟩ => ⟨S16777216, .i32⟩
  | .hbm, ⟨32, _⟩ => ⟨S16777216, .i32⟩
  | .hbm, ⟨33, _⟩ => ⟨S16777216x1, .i32⟩
  | .hbm, ⟨34, _⟩ => ⟨S16777216x1, .i32⟩
  | .hbm, ⟨35, _⟩ => ⟨S16777216x2, .i32⟩
  | .hbm, ⟨36, _⟩ => ⟨S16777216, .f32⟩
  | .hbm, ⟨37, _⟩ => ⟨S16777216, .f32⟩
  | .hbm, ⟨38, _⟩ => ⟨S_, .f32⟩
  | .hbm, ⟨39, _⟩ => ⟨S16777216, .f32⟩
  | .hbm, ⟨40, _⟩ => ⟨S16777216, .f32⟩
  | .hbm, ⟨41, _⟩ => ⟨S_, .f32⟩
  | .hbm, ⟨42, _⟩ => ⟨S16777216, .f32⟩
  | .hbm, ⟨43, _⟩ => ⟨S16777216, .f32⟩
  | .hbm, ⟨44, _⟩ => ⟨S_, .i32⟩
  | .hbm, ⟨45, _⟩ => ⟨S16777216, .i32⟩
  | .hbm, ⟨46, _⟩ => ⟨S16777216, .i1⟩
  | .hbm, ⟨47, _⟩ => ⟨S_, .i32⟩
  | .hbm, ⟨48, _⟩ => ⟨S16777216, .i32⟩
  | .hbm, ⟨49, _⟩ => ⟨S16777216, .i32⟩
  | .hbm, ⟨50, _⟩ => ⟨S16777216, .i32⟩
  | .hbm, ⟨51, _⟩ => ⟨S16777216x1, .i32⟩
  | .hbm, ⟨52, _⟩ => ⟨S16777216, .f32⟩
  | .hbm, ⟨53, _⟩ => ⟨S16777216, .f32⟩
  | .hbm, ⟨54, _⟩ => ⟨S16777216, .f32⟩
  | .hbm, ⟨55, _⟩ => ⟨S16777216, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_v32 : Ref sig .tc := ⟨.hbm, 59, rfl⟩

abbrev nD : Nat := 1
abbrev τ : Topo := Topo.v7x

variable {F : FTy → Type} [FloatOps F]

class Facts₀ : Prop where
  reducesTo_S16777216x2_S16777216_d1 : S16777216x2.ReducesTo [1] S16777216
  h_S_ : 0 < S_.numel
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x2_0_1 : S16777216x1.BroadcastsInDim S16777216x2 (![0, 1] : Fin 2 → Fin S16777216x2.rank)
  concatenates_S16777216x1_S16777216x1_S16777216x2_d1 : Shape.Concatenates [S16777216x1, S16777216x1] S16777216x2 1
  reducesTo_S16777216_S_d0 : S16777216.ReducesTo [0] S_
  gather_S16777216x2_S16777216x2_S16777216_n_01_n_n_01_1_11_wf : GatherDims.WF S16777216x2 S16777216x2 S16777216 [] [0, 1] [] [0, 1] [] 1 ![1, 1]
  gather_S2_S16777216x1_S16777216_n_0_n_n_0_1_1_wf : GatherDims.WF S2 S16777216x1 S16777216 [] [0] [] [0] [] 1 ![1]

variable [Facts₀]

def gather_S16777216x2_S16777216x2_S16777216_n_01_n_n_01_1_11 : GatherDims S16777216x2 S16777216x2 S16777216 where
  offsetDims := []
  collapsedSliceDims := [0, 1]
  operandBatchingDims := []
  startIndicesBatchingDims := []
  startIndexMap := [0, 1]
  indexVectorDim := 1
  sliceSizes := ![1, 1]
  wf := gather_S16777216x2_S16777216x2_S16777216_n_01_n_n_01_1_11_wf
def gather_S2_S16777216x1_S16777216_n_0_n_n_0_1_1 : GatherDims S2 S16777216x1 S16777216 where
  offsetDims := []
  collapsedSliceDims := [0]
  operandBatchingDims := []
  startIndicesBatchingDims := []
  startIndexMap := [0]
  indexVectorDim := 1
  sliceSizes := ![1]
  wf := gather_S2_S16777216x1_S16777216_n_0_n_n_0_1_1_wf

class Facts : Prop extends Facts₀ where

variable [Facts]
-- ==== Proof.KernelValue.lean ====
/-
  What the idealized kernel's run leaves in its result, at any float instance.

  The grid has 4096 points; point t stages rows 4096 t .. 4096 t + 4095 of the logits and of the labels.  The body
  computes from the two staged blocks one number, the block's sum of losses (the payload `bsum` below), and adds it
  to a [1, 1] scratch accumulator that lives across the grid: the first point stores zero and reads it back before
  adding, every later point adds to what the point before left, and the last point also stores the accumulator
  divided by the number of rows into the output block, which the pipeline then writes back once.  So after point n the
  accumulator holds `acc n`, the chain  ((0 + b_0) + b_1) + ... + b_n  of the blocks' sums in grid order (by induction
  on the point, never by enumerating the grid), the result array holds  acc 4095 / N , and the host's reshape to a
  scalar reads that one entry.
-/
import proofs.«422294_j40999757807958_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## What each case of the body leaves -/

/-- The first point: the accumulator is reset to zero, read back, and left at zero plus the block's sum. -/
theorem sout_A (c : Dev nD) (i : grid0.Coords) (a1 : Memref sig .tc .vmem S4096x2 .f32) (h1 : a1.IsWhole)
    (a2 : Memref sig .tc .vmem S4096 .i32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S4096x2 .f32) (x1 : Vec F S4096 .i32) :
    sout0_A_0 c i a1 h1 a2 h2 a3 h3 a4 h4 hc0 hc1 x0 x1 = k0_pay1 (k0_pay4 x0 x1) (k0_pay3 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x2) hz,
    View.ld_unit_zero (S := S4096) hz1]

/-- A middle point: the accumulator, found at `xs`, is left at `xs` plus the block's sum. -/
theorem sout_B (c : Dev nD) (i : grid0.Coords) (a1 : Memref sig .tc .vmem S4096x2 .f32) (h1 : a1.IsWhole)
    (a2 : Memref sig .tc .vmem S4096 .i32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S4096x2 .f32) (x1 : Vec F S4096 .i32) (xs : Vec F S1x1 .f32) :
    sout0_B_0 c i a1 h1 a2 h2 a3 h3 a4 h4 hc0 hc1 x0 x1 xs = k0_pay1 (k0_pay4 x0 x1) xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S4096x2) hz,
    View.ld_unit_zero (S := S4096) hz1, View.ld_unit_zero (S := S1x1) hz]

/-- The last point leaves the accumulator the same way, -/
theorem sout_C (c : Dev nD) (i : grid0.Coords) (a1 : Memref sig .tc .vmem S4096x2 .f32) (h1 : a1.IsWhole)
    (a2 : Memref sig .tc .vmem S4096 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S4096x2 .f32) (x1 : Vec F S4096 .i32) (xs : Vec F S1x1 .f32) :
    sout0_C_0 c i a1 h1 a2 h2 a3 h3 a4 h4 hc0 hc1 x0 x1 xs = k0_pay1 (k0_pay4 x0 x1) xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S4096x2) hz,
    View.ld_unit_zero (S := S4096) hz1, View.ld_unit_zero (S := S1x1) hz]

/-- and stores into the output block the accumulator it has just written, read back, over the row count. -/
theorem out_C (c : Dev nD) (i : grid0.Coords) (a1 : Memref sig .tc .vmem S4096x2 .f32) (h1 : a1.IsWhole)
    (a2 : Memref sig .tc .vmem S4096 .i32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S4096x2 .f32) (x1 : Vec F S4096 .i32) (xs : Vec F S1x1 .f32) :
    out0_C_2 c i a1 h1 a2 h2 a3 h3 a4 h4 hc0 hc1 x0 x1 xs = k0_pay2 (k0_pay1 (k0_pay4 x0 x1) xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S4096x2) hz,
    View.ld_unit_zero (S := S4096) hz1, View.ld_unit_zero (S := S1x1) hz]

/-! ## The accumulator after each point -/

/-- The logits' block at point `t`, at its literal type. -/
abbrev xblk (c : Dev nD) (t : Fin cfg0.N) : Vec F S4096x2 .f32 := iblk m c 0 t
/-- The labels' block at point `t`, at its literal type. -/
abbrev tblk (c : Dev nD) (t : Fin cfg0.N) : Vec F S4096 .i32 := iblk m c 1 t

/-- The running chain of the blocks' sums, in grid order. -/
def acc (c : Dev nD) : (n : ℕ) → n < cfg0.N → Vec F S1x1 .f32
  | 0, h => k0_pay1 (k0_pay4 (xblk m c ⟨0, h⟩) (tblk m c ⟨0, h⟩)) (k0_pay3 (F := F))
  | n + 1, h => k0_pay1 (k0_pay4 (xblk m c ⟨n + 1, h⟩) (tblk m c ⟨n + 1, h⟩)) (acc c n (Nat.lt_of_succ_lt h))

/-- The accumulator after point `n` is the chain up to `n`: by induction on the point, the case of each point read
    off the grid position. -/
theorem scr_eq (c : Dev nD) : ∀ (n : ℕ) (h : n < cfg0.N), (outsAt0 m c n h).2 = acc m c n h
  | 0, h => by
    rw [outsAt0_A m c ⟨0, h⟩ rfl (by show ¬(0 % 4096 = 4095); decide)]
    dsimp only
    exact sout_A c _ _ _ _ _ _ _ _ _ _ _ _ _
  | n + 1, h => by
    have hN : cfg0.N = 4096 := N_0
    have h0 : ¬(⟨n + 1, h⟩ : Fin cfg0.N).val % 4096 = 0 := by dsimp only; omega
    by_cases h1 : (⟨n + 1, h⟩ : Fin cfg0.N).val % 4096 = 4095
    · rw [outsAt0_C m c ⟨n + 1, h⟩ h0 h1]
      dsimp only
      rw [sout_C]
      show k0_pay1 _ (outsAt0 m c n _).2 = k0_pay1 _ (acc m c n _)
      rw [scr_eq c n]
    · rw [outsAt0_B m c ⟨n + 1, h⟩ h0 h1]
      dsimp only
      rw [sout_B]
      show k0_pay1 _ (outsAt0 m c n _).2 = k0_pay1 _ (acc m c n _)
      rw [scr_eq c n]

/-- The last point. -/
abbrev tLast : Fin cfg0.N := ⟨4095, by rw [show cfg0.N = 4096 from N_0]; decide⟩

/-- The result array's one entry: the whole chain over the row count. -/
abbrev result (c : Dev nD) : Buf (Elt F) ((c : Thread nD τ).loc main_v0) := k0_pay2 (acc m c 4095 tLast.isLt)

/-- What the last point leaves in the output block. -/
theorem out_last (c : Dev nD) : (outsAt0 m c tLast.val tLast.isLt).1 = result m c := by
  have h0 : ¬(tLast : Fin cfg0.N).val % 4096 = 0 := by decide
  have h1 : (tLast : Fin cfg0.N).val % 4096 = 4095 := by decide
  rw [outsAt0_C m c tLast h0 h1]
  dsimp only
  rw [out_C]
  show k0_pay2 (k0_pay1 _ (outsAt0 m c 4094 _).2) = k0_pay2 (k0_pay1 _ (acc m c 4094 _))
  rw [scr_eq m c 4094]

/-! ## The result array -/

/-- The one write-back, at the last point, writes the result: block (0, 0) of the [1, 1] array is the array. -/
theorem flushed_eq (c : Dev nD) (t : Fin cfg0.N) (hf : (cfg0.win 2).flush t = true) :
    (dats m 0 c).flushed 2 t = ((cfg0.win 2).blk t).view.read (Elt F) (result m c) := by
  have hN : cfg0.N = 4096 := N_0
  have h3 : t.val = 4095 := by have := (flush0_2 t).mp hf; have := t.isLt; omega
  obtain rfl : t = tLast := Fin.ext h3
  show (cfg0.win 2).cut (grid0.coords tLast) ((dats m 0 c).after 2 tLast) = _
  rw [after0_2, out_last]
  have hz' : (fun a => win0_2.index tLast a * main_v0.ty.shape.size a) = fun _ => 0 := funext fun a => by fin_cases a <;> decide +kernel
  exact (Memref.read_access_unit_zero (Elt F) main_v0 hz' (fun a => by rw [congrFun hz' a]; simp) (result m c)).symm

/-- So the result array ends holding it: the last point's block covers the array. -/
theorem final_o (c : Dev nD) : (dats m 0 c).arrAt 2 cfg0.N = result m c :=
  (dats m 0 c).arrAt_eq_of_cover 2 (result m c) (flushed_eq m c) fun i =>
    ⟨tLast, (flush0_2 tLast).mpr (by decide), by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host's reshape after the region reads the result array. -/
theorem tail_eq (c : Dev nD) :
    Pipeline.afterTail₀ cfgs (dats m) 0 (V0 m) [hostOps1] c main_v1 = shapeCast S_ (result m c) shapeCasts_S1x1_S_ := by
  unfold Pipeline.afterTail₀
  show StableHlo.after hostOps1 _ (Proc.devRef .tc main_v1) = _
  after_results
  rw [(Pipeline.withArrays_arr spec0 launch0.win.arr_inj c _ _ 2).trans (final_o m c)]
  rfl

/-- The run, read: the scalar result at the chain over the row count, the two arguments unchanged. -/
theorem run : θ_run defs (onTc (τ := τ) (main (F := F))) ⟨m, fun _ => 0, ρ⟩ fun r => ∀ c : Dev nD,
      r.2.mem ((c : Thread nD τ).loc main_v1) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RowLoss.lean ====
/-
  One sample's focal loss over two classes, on the extended reals.

  For a pair of logits (x0, x1) the log-probability of the class with logit xj is
  (xj - max x0 x1) - log (e^(x0 - max) + e^(x1 - max)).  The kernel picks the label's log-probability and
  weight by arithmetic on the label t read as a number, u = lp0 * (1 - t) + lp1 * t and a = a0 * (1 - t) + a1 * t,
  squares 1 - e^u by a product and negates the weight as 0 - a; the reference picks entry k of the pair
  (lp0, lp1) and of (a0, a1), squares by a power with exponent 2 and negates with a minus sign.  For a label
  t in {0, 1} (k the same number) and real logits the two are one extended real: with t = 0 the sums
  collapse by x * 1 + y * 0 = x, with t = 1 by x * 0 + y * 1 = y (no finiteness used), and the square of the
  REAL number 1 - e^u is the same by either spelling (this is where real logits are used: at u = +inf the
  product (-inf) * (-inf) and the power (-inf)^2 differ).
-/
import Idealize.ShloMosaic.PureOps.Ideal.Laws
import Idealize.ShloMosaic.Lib.IdealHost

noncomputable section

namespace Cert.Focal

open Idealize.ShloMosaic

/-- The log-probability, under the softmax of the pair (x0, x1), of the class whose logit is xj. -/
def logp (x0 x1 xj : EReal) : EReal :=
  (xj - max x0 x1) - Ideal.log (Ideal.exp (x0 - max x0 x1) + Ideal.exp (x1 - max x0 x1))

/-- For real logits it is a real number: the sum of the two exponentials is positive. -/
theorem logp_coe (x0 x1 xj : ℝ) : ∃ r : ℝ, logp (x0 : EReal) (x1 : EReal) (xj : EReal) = (r : EReal) := by
  have hpos : 0 < Real.exp (x0 - max x0 x1) + Real.exp (x1 - max x0 x1) :=
    add_pos (Real.exp_pos _) (Real.exp_pos _)
  refine ⟨(xj - max x0 x1) - Real.log (Real.exp (x0 - max x0 x1) + Real.exp (x1 - max x0 x1)), ?_⟩
  have hmax : max (x0 : EReal) (x1 : EReal) = ((max x0 x1 : ℝ) : EReal) :=
    (EReal.coe_strictMono.monotone.map_max).symm
  unfold logp
  rw [hmax, ← EReal.coe_sub, ← EReal.coe_sub, ← EReal.coe_sub, Ideal.exp_coe, Ideal.exp_coe, ← EReal.coe_add,
    Ideal.log_coe, if_neg (not_le.mpr hpos), ← EReal.coe_sub]

/-- A label word read as a number (the kernel's signed integer-to-float conversion, exact). -/
def tval (t : BitVec 32) : EReal := ((t.toInt : ℝ) : EReal)

theorem tval_zero : tval 0#32 = 0 := by simp [tval]
theorem tval_one : tval 1#32 = 1 := by simp [tval]

/-- The kernel's spelling of one sample's loss: the label's log-probability and weight by arithmetic on the label. -/
def rowK (a0 a1 x0 x1 : EReal) (t : BitVec 32) : EReal :=
  (0 - (a0 * (1 - tval t) + a1 * tval t))
    * ((1 - Ideal.exp (logp x0 x1 x0 * (1 - tval t) + logp x0 x1 x1 * tval t))
      * (1 - Ideal.exp (logp x0 x1 x0 * (1 - tval t) + logp x0 x1 x1 * tval t)))
    * (logp x0 x1 x0 * (1 - tval t) + logp x0 x1 x1 * tval t)

/-- The reference's spelling: entry k of the pair of log-probabilities and of the pair of weights, the square
    a power with exponent two. -/
def rowR (a0 a1 x0 x1 two : EReal) (k : Fin 2) : EReal :=
  (-(if k = 0 then a0 else a1))
    * Ideal.pow (1 - Ideal.exp (if k = 0 then logp x0 x1 x0 else logp x0 x1 x1)) two
    * (if k = 0 then logp x0 x1 x0 else logp x0 x1 x1)

/-- The f32 pattern 0xFF800000 is minus infinity. -/
theorem ofBits_neg_inf_f32 : Ideal.ofBits .f32 0xFF800000#32 = ⊥ := by
  simp [Ideal.ofBits, Ideal.ieee]

/-- The maximum, from minus infinity, over the two entries of a row. -/
theorem fold_max_two (b : EReal) (f : Fin 2 → EReal) :
    (Finset.univ : Finset (Fin 2)).fold max b f = max (f 0) (max (f 1) b) := by
  rw [show (Finset.univ : Finset (Fin 2)) = {0, 1} from by decide, Finset.fold_insert (by decide), Finset.fold_singleton]

/-- The same for any commutative and associative operation. -/
theorem fold_two {α : Type} (op : α → α → α) [Std.Commutative op] [Std.Associative op] (b : α) (f : Fin 2 → α) :
    (Finset.univ : Finset (Fin 2)).fold op b f = op (f 0) (op (f 1) b) := by
  rw [show (Finset.univ : Finset (Fin 2)) = {0, 1} from by decide, Finset.fold_insert (by decide), Finset.fold_singleton]

/-- The two class weights, as the patterns both programs carry (0.75 and 0.25; their values are never needed). -/
abbrev w0 : EReal := Ideal.ofBits .f32 0x3F400000#32
abbrev w1 : EReal := Ideal.ofBits .f32 0x3E800000#32

/-- The f32 pattern 0x40000000 is the real number two. -/
theorem ofBits_two_f32 : Ideal.ofBits .f32 0x40000000#32 = ((2 : ℝ) : EReal) := by
  simp [Ideal.ofBits, Ideal.ieee, -EReal.coe_mul]; norm_num

/-- The square of a real number 1 - e^r, as a product and as a power with exponent two. -/
theorem sq_forms (r : ℝ) :
    (1 - Ideal.exp (r : EReal)) * (1 - Ideal.exp (r : EReal)) = Ideal.pow (1 - Ideal.exp (r : EReal)) ((2 : ℝ) : EReal) := by
  rw [Ideal.exp_coe, ← EReal.coe_one, ← EReal.coe_sub, ← EReal.coe_mul, Ideal.pow_coe_coe]
  congr 1
  rw [Real.rpow_eq_pow, Real.rpow_two, sq]

/-- At label 0 the kernel's spelling is the reference's at entry 0, for real logits. -/
theorem rowK_zero (a0 a1 : EReal) (x0 x1 : ℝ) :
    rowK a0 a1 x0 x1 0#32 = rowR a0 a1 x0 x1 ((2 : ℝ) : EReal) 0 := by
  obtain ⟨r, hr⟩ := logp_coe x0 x1 x0
  unfold rowK rowR
  simp only [tval_zero, sub_zero, mul_one, mul_zero, add_zero, if_true, zero_sub]
  rw [hr, sq_forms]

/-- At label 1 the kernel's spelling is the reference's at entry 1, for real logits. -/
theorem rowK_one (a0 a1 : EReal) (x0 x1 : ℝ) :
    rowK a0 a1 x0 x1 1#32 = rowR a0 a1 x0 x1 ((2 : ℝ) : EReal) 1 := by
  obtain ⟨r, hr⟩ := logp_coe x0 x1 x1
  have h11 : (1 : EReal) - 1 = 0 := by rw [← EReal.coe_one, ← EReal.coe_sub, sub_self, EReal.coe_zero]
  unfold rowK rowR
  simp only [tval_one, h11, mul_one, mul_zero, zero_add, zero_sub, Fin.one_eq_zero_iff, if_false]
  rw [hr, sq_forms]
  simp

/-- For real logits and a label that is 0 or 1 the kernel's spelling is the reference's at the label's entry. -/
theorem rowK_eq_rowR (a0 a1 : EReal) (x0 x1 : ℝ) (t : BitVec 32) (ht : t.toNat < 2) :
    rowK a0 a1 x0 x1 t = rowR a0 a1 x0 x1 (Ideal.ofBits .f32 0x40000000#32) ⟨t.toNat, ht⟩ := by
  rw [ofBits_two_f32]
  have h01 : t = 0#32 ∨ t = 1#32 := by
    have h2 : t.toNat = 0 ∨ t.toNat = 1 := by omega
    rcases h2 with h | h
    · left; exact BitVec.eq_of_toNat_eq (by simpa using h)
    · right; exact BitVec.eq_of_toNat_eq (by simpa using h)
  rcases h01 with rfl | rfl
  · exact rowK_zero a0 a1 x0 x1
  · exact rowK_one a0 a1 x0 x1

end Cert.Focal

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.BlockSum.lean ====
/-
  The kernel's per-block payload, read at an index on the extended reals.

  From a staged [4096, 2] block x of logits and the [4096] block tg of labels the body computes one [1, 1] value: the
  sum over the block's 4096 rows k of the loss of row k, where row k's loss is the kernel's spelling `rowK` of the
  focal loss of the pair (x (k, 0), x (k, 1)) at label tg k.  Read stage by stage: the row maximum (a lane reduction
  from minus infinity, then a maximum with minus infinity again) is the larger of the two entries; the shifted
  logits; the log of the row sum of the exponentials, kept as a column and broadcast back over the two lanes; the two
  lanes cut out as vectors; the pointwise arithmetic on the label; the sum over the rows of the [1, 4096] cast.
-/
import proofs.«422294_j40999757807958_2_alg».proof.Proof.Gen.KernelIdeal.Skeleton
import proofs.«422294_j40999757807958_2_alg».proof.Proof.RowLoss
import proofs.«422294_j40999757807958_2_alg».proof.Proof.LibRowCasts
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.BlockSum

open Cert.KernelIdeal Cert.KernelIdeal.Gen Idealize.ShloMosaic Idealize.ShloMosaic.ValueIdx Idealize.ShloMosaic.RowCasts Cert.Focal

variable (x : Vec Ideal S4096x2 .f32) (tg : Vec Ideal S4096 .i32)

/-- The row maxima. -/
def rmax : FVec Ideal S4096 .f32 :=
  maximumf (broadcast S4096 (Scalar.ofBits .f32 0xFF800000#32))
    (multiReduction .maximumf [1] S4096 x 0xFF800000#32 reduces_S4096x2_S4096 (.inl rfl) rfl)

/-- The logits less their row maximum. -/
def shifted : FVec Ideal S4096x2 .f32 :=
  subf x (broadcastTo S4096x2 (shapeCast S4096x1 (rmax x) shapeCasts_S4096_S4096x1) broadcasts_S4096x1_S4096x2)

/-- The log-probabilities. -/
def lsmK : FVec Ideal S4096x2 .f32 :=
  subf (shifted x) (broadcastTo S4096x2
    (log (shapeCast S4096x1 (multiReduction .add [1] S4096 (exp (shifted x)) 0x00000000#32 reduces_S4096x2_S4096 (.inl rfl) rfl)
      shapeCasts_S4096_S4096x1)) broadcasts_S4096x1_S4096x2)

/-- Lane `j` of the log-probabilities, as a vector over the rows. -/
def lane0 : FVec Ideal S4096 .f32 :=
  shapeCast S4096 (extractStridedSlice S4096x1 ![0, 0] (lsmK x) slices_S4096x2_o0_0_S4096x1) shapeCasts_S4096x1_S4096
def lane1 : FVec Ideal S4096 .f32 :=
  shapeCast S4096 (extractStridedSlice S4096x1 ![0, 1] (lsmK x) slices_S4096x2_o0_1_S4096x1) shapeCasts_S4096x1_S4096

/-- The labels as numbers, and one minus them. -/
def tnum : FVec Ideal S4096 .f32 := sitofp .f32 tg
def tcomp : FVec Ideal S4096 .f32 := subf (broadcast S4096 (Scalar.ofBits .f32 0x3F800000#32)) (tnum tg)

/-- The label's log-probability by arithmetic. -/
def pick : FVec Ideal S4096 .f32 := addf (mulf (lane0 x) (tcomp tg)) (mulf (lane1 x) (tnum tg))

/-- The rows' losses. -/
def lossvec : FVec Ideal S4096 .f32 :=
  mulf
    (mulf
      (subf (broadcast S4096 (Scalar.ofBits .f32 0x00000000#32))
        (addf (mulf (broadcast S4096 (Scalar.ofBits .f32 0x3F400000#32)) (tcomp tg))
          (mulf (broadcast S4096 (Scalar.ofBits .f32 0x3E800000#32)) (tnum tg))))
      (mulf (subf (broadcast S4096 (Scalar.ofBits .f32 0x3F800000#32)) (exp (pick x tg)))
        (subf (broadcast S4096 (Scalar.ofBits .f32 0x3F800000#32)) (exp (pick x tg)))))
    (pick x tg)

/-- The payload is the sum of the rows' losses through a [1, 4096] cast. -/
theorem pay4_eq : k0_pay4 (F := Ideal) x tg
    = shapeCast S1x1 (multiReduction .add [1] S1 (shapeCast S1x4096 (lossvec x tg) shapeCasts_S4096_S1x4096) 0x00000000#32
        reduces_S1x4096_S1 (.inl rfl) rfl) shapeCasts_S1_S1x1 := rfl

/-! ## Stage by stage, at a row -/

theorem lift_row (k : Fin 4096) (j : Fin 2) :
    (reduces_S4096x2_S4096 : S4096x2.Reduces [1] S4096).lift (ix1 k) j = ix2 k j := by
  funext a
  match a with
  | ⟨0, _⟩ => rfl
  | ⟨1, _⟩ => rfl

/-- A lane maximum from minus infinity over a two-lane row is the larger entry. -/
theorem rowmax_apply (v : FVec Ideal S4096x2 .f32) (k : Fin 4096) :
    multiReduction .maximumf [1] S4096 v 0xFF800000#32 reduces_S4096x2_S4096 (.inl rfl) rfl (ix1 k)
      = max (v (ix2 k 0)) (v (ix2 k 1)) :=
  (Ideal.multiReduction_maximumf_single v 0xFF800000#32 reduces_S4096x2_S4096 (.inl rfl) rfl (ix1 k)).trans (by
    refine (fold_max_two (Ideal.ofBits .f32 0xFF800000#32)
      (fun j' : Fin 2 => v ((reduces_S4096x2_S4096 : S4096x2.Reduces [1] S4096).lift (ix1 k) j'))).trans ?_
    rw [ofBits_neg_inf_f32, max_bot_right, lift_row, lift_row])

/-- A lane sum from zero over a two-lane row is the sum of the two entries. -/
theorem rowsum_apply (v : FVec Ideal S4096x2 .f32) (k : Fin 4096) :
    multiReduction .add [1] S4096 v 0x00000000#32 reduces_S4096x2_S4096 (.inl rfl) rfl (ix1 k)
      = v (ix2 k 0) + v (ix2 k 1) :=
  (Ideal.multiReduction_add_single v 0x00000000#32 reduces_S4096x2_S4096 (.inl rfl) rfl (ix1 k)).trans (by
    show ∑ j' : Fin 2, v ((reduces_S4096x2_S4096 : S4096x2.Reduces [1] S4096).lift (ix1 k) j') = _
    rw [Fin.sum_univ_two, lift_row, lift_row])

/-- The sum along the lanes of a one-row matrix is the sum of its entries. -/
theorem lanesum_apply (v : FVec Ideal S1x4096 .f32) :
    multiReduction .add [1] S1 v 0x00000000#32 reduces_S1x4096_S1 (.inl rfl) rfl (ix1 (0 : Fin 1))
      = ∑ k : Fin 4096, v (ix2 (0 : Fin 1) k) :=
  (Ideal.multiReduction_add_single v 0x00000000#32 reduces_S1x4096_S1 (.inl rfl) rfl (ix1 (0 : Fin 1))).trans (by
    show ∑ k : Fin 4096, v ((reduces_S1x4096_S1 : S1x4096.Reduces [1] S1).lift (ix1 (0 : Fin 1)) k) = _
    refine Finset.sum_congr rfl fun k _ => congrArg v ?_
    funext a
    match a with
    | ⟨0, _⟩ => rfl
    | ⟨1, _⟩ => rfl)

theorem rmax_apply (k : Fin 4096) : rmax x (ix1 k) = max (x (ix2 k 0)) (x (ix2 k 1)) := by
  unfold rmax
  rw [maximumf_apply, broadcast_apply, rowmax_apply]
  show max (Ideal.ofBits .f32 0xFF800000#32) _ = _
  rw [ofBits_neg_inf_f32, max_bot_left]

theorem shifted_apply (k : Fin 4096) (j : Fin 2) :
    shifted x (ix2 k j) = x (ix2 k j) - max (x (ix2 k 0)) (x (ix2 k 1)) := by
  unfold shifted
  rw [subf_apply, broadcastTo_column_apply, shapeCast_column_apply, rmax_apply]

theorem lsmK_apply (k : Fin 4096) (j : Fin 2) :
    lsmK x (ix2 k j) = logp (x (ix2 k 0)) (x (ix2 k 1)) (x (ix2 k j)) := by
  unfold lsmK logp
  rw [subf_apply, broadcastTo_column_apply, shifted_apply]
  show _ - Ideal.log (shapeCast S4096x1 _ shapeCasts_S4096_S4096x1 (ix2 k (0 : Fin 1))) = _
  rw [shapeCast_column_apply, rowsum_apply]
  show _ - Ideal.log (Ideal.exp (shifted x (ix2 k 0)) + Ideal.exp (shifted x (ix2 k 1))) = _
  rw [shifted_apply, shifted_apply]

theorem lane0_apply (k : Fin 4096) : lane0 x (ix1 k) = logp (x (ix2 k 0)) (x (ix2 k 1)) (x (ix2 k 0)) := by
  unfold lane0
  rw [shapeCast_apply _ _ (ix1 k) (ix2 k (0 : Fin 1)) (by rw [Shape.rowMajor_val_one, Shape.rowMajor_val_two]; show k.val * 1 + 0 = k.val; omega),
    slice2_axis1_apply 0 _ _ k (0 : Fin 1) (0 : Fin 2) rfl, lsmK_apply]

theorem lane1_apply (k : Fin 4096) : lane1 x (ix1 k) = logp (x (ix2 k 0)) (x (ix2 k 1)) (x (ix2 k 1)) := by
  unfold lane1
  rw [shapeCast_apply _ _ (ix1 k) (ix2 k (0 : Fin 1)) (by rw [Shape.rowMajor_val_one, Shape.rowMajor_val_two]; show k.val * 1 + 0 = k.val; omega),
    slice2_axis1_apply 1 _ _ k (0 : Fin 1) (1 : Fin 2) rfl, lsmK_apply]

theorem tnum_apply (k : Fin 4096) : tnum tg (ix1 k) = tval (tg (ix1 k)) := rfl

theorem tcomp_apply (k : Fin 4096) : tcomp tg (ix1 k) = 1 - tval (tg (ix1 k)) := by
  unfold tcomp
  rw [subf_apply, broadcast_apply, tnum_apply]
  show Ideal.ofBits .f32 0x3F800000#32 - _ = _
  rw [Ideal.ofBits_one_f32]

theorem pick_apply (k : Fin 4096) :
    pick x tg (ix1 k) = logp (x (ix2 k 0)) (x (ix2 k 1)) (x (ix2 k 0)) * (1 - tval (tg (ix1 k)))
      + logp (x (ix2 k 0)) (x (ix2 k 1)) (x (ix2 k 1)) * tval (tg (ix1 k)) := by
  unfold pick
  rw [addf_apply, mulf_apply, mulf_apply, lane0_apply, lane1_apply, tcomp_apply, tnum_apply]

theorem lossvec_apply (k : Fin 4096) :
    lossvec x tg (ix1 k) = rowK w0 w1 (x (ix2 k 0)) (x (ix2 k 1)) (tg (ix1 k)) := by
  unfold lossvec rowK
  simp only [mulf_apply, subf_apply, addf_apply, broadcast_apply, tcomp_apply, tnum_apply]
  show (Ideal.ofBits .f32 0x00000000#32 - (Ideal.ofBits .f32 0x3F400000#32 * _ + Ideal.ofBits .f32 0x3E800000#32 * _))
      * ((Ideal.ofBits .f32 0x3F800000#32 - Ideal.exp (pick x tg (ix1 k))) * (Ideal.ofBits .f32 0x3F800000#32 - Ideal.exp (pick x tg (ix1 k))))
      * pick x tg (ix1 k) = _
  rw [pick_apply, Ideal.ofBits_one_f32, Ideal.ofBits_zero_f32]

/-- The block's sum: the payload at its one index is the sum of the rows' losses. -/
theorem pay4_apply (j : S1x1.Idx) :
    k0_pay4 (F := Ideal) x tg j = ∑ k : Fin 4096, rowK w0 w1 (x (ix2 k 0)) (x (ix2 k 1)) (tg (ix1 k)) := by
  rw [pay4_eq]
  have hj : j = ix2 (0 : Fin 1) (0 : Fin 1) := by
    funext a
    match a with
    | ⟨0, _⟩ => exact Fin.ext (by have := idx2_lt0 j; show (j 0).val = 0; omega)
    | ⟨1, _⟩ => exact Fin.ext (by have := idx2_lt1 j; show (j 1).val = 0; omega)
  rw [hj, shapeCast_column_apply, lanesum_apply]
  refine Finset.sum_congr rfl fun k _ => ?_
  rw [shapeCast_a_1a_apply, lossvec_apply]

end Cert.KernelIdeal.BlockSum

end
-- ==== Proof.KernelSum.lean ====
/-
  The kernel's result on the extended reals: the sum of all rows' losses over the row count.

  At the ideal instance the accumulator's chain ((0 + b_0) + b_1) + ... is the plain sum of the blocks' sums (0 + x = x;
  addition of extended reals needs no finiteness to regroup), each block's sum is the sum over its 4096 rows of the
  row's loss (BlockSum), block t's row k is row 4096 t + k of the argument arrays (the window's index map is the grid
  position, read once over the grid), and the double sum over (t, k) is the sum over all 16777216 rows.
-/
import proofs.«422294_j40999757807958_2_alg».proof.Proof.KernelValue
import proofs.«422294_j40999757807958_2_alg».proof.Proof.BlockSum

noncomputable section

open Idealize.ShloMosaic Idealize.ShloMosaic.TcCoe Idealize.SL.Sem

namespace Cert.KernelIdeal.KSum

open Cert.KernelIdeal Cert.KernelIdeal.Gen Cert.KernelIdeal.KValue Cert.KernelIdeal.BlockSum
open Idealize.ShloMosaic.ValueIdx Cert.Focal

/-! ## Sums -/

/-- The double sum over (block, row in block) is the sum over all rows. -/
theorem sum_blocks (f : Fin 16777216 → EReal) :
    ∑ t : Fin 4096, ∑ k : Fin 4096, f ⟨4096 * t.val + k.val, by have := t.isLt; have := k.isLt; omega⟩ = ∑ i : Fin 16777216, f i := by
  rw [← Fintype.sum_prod_type' (f := fun (t : Fin 4096) (k : Fin 4096) => f ⟨4096 * t.val + k.val, by have := t.isLt; have := k.isLt; omega⟩)]
  refine Fintype.sum_equiv (finProdFinEquiv.trans (finCongr (by norm_num))) _ _ fun p => congrArg f (Fin.ext ?_)
  simp [finProdFinEquiv]
  omega

variable (m : (ℓ : Loc nD τ sig) → Buf (Elt Ideal) ℓ)

/-! ## The payloads at their one index -/

theorem pay3_apply (j : S1x1.Idx) : k0_pay3 (F := Ideal) j = 0 := by
  unfold k0_pay3
  rw [shapeCast_self]
  exact Ideal.ofBits_zero_f32

theorem pay1_apply (v42 v43 : Vec Ideal S1x1 .f32) (j : S1x1.Idx) : k0_pay1 (F := Ideal) v42 v43 j = v43 j + v42 j := by
  unfold k0_pay1
  rw [shapeCast_self]
  rfl

theorem pay2_apply (v : Vec Ideal S1x1 .f32) (j : S1x1.Idx) :
    k0_pay2 (F := Ideal) v j = Ideal.div (v j) (Ideal.ofBits .f32 0x4B800000#32) := rfl

/-! ## The blocks are rows of the arguments -/

theorem idx_facts0 : ∀ t : Fin cfg0.N, win0_0.index t 0 = t.val ∧ win0_0.index t 1 = 0 :=
  (by decide +kernel : ∀ t : Fin grid0.N, win0_0.index t 0 = t.val ∧ win0_0.index t 1 = 0)

theorem idx_facts1 : ∀ t : Fin cfg0.N, win0_1.index t 0 = t.val :=
  (by decide +kernel : ∀ t : Fin grid0.N, win0_1.index t 0 = t.val)

/-- Row `k` of block `t`, as a row of the arrays. -/
def rowOf (t : Fin cfg0.N) (k : Fin 4096) : Fin 16777216 :=
  ⟨4096 * t.val + k.val, by have := lt_of_lt_of_eq t.isLt (show cfg0.N = 4096 from N_0); have := k.isLt; omega⟩

theorem xblk_apply (c : Dev nD) (t : Fin cfg0.N) (k : Fin 4096) (j : Fin 2) :
    xblk m c t (ix2 k j) = m ((c : Thread nD τ).loc main_arg0) (ix2 (rowOf t k) j) := by
  show iblk m c 0 t (ix2 k j) = _
  unfold iblk
  rw [View.read_apply]
  show V m c main_arg0 _ = m (c.tc.loc main_arg0) _
  rw [V_main_arg0]
  congr 1
  funext a
  apply Fin.ext
  match a with
  | ⟨0, _⟩ => show win0_0.index t 0 * 4096 + 1 * k.val = 4096 * t.val + k.val; rw [(idx_facts0 t).1]; omega
  | ⟨1, _⟩ => show win0_0.index t 1 * 2 + 1 * j.val = j.val; rw [(idx_facts0 t).2]; omega

theorem tblk_apply (c : Dev nD) (t : Fin cfg0.N) (k : Fin 4096) :
    tblk m c t (ix1 k) = m ((c : Thread nD τ).loc main_arg1) (ix1 (rowOf t k)) := by
  show iblk m c 1 t (ix1 k) = _
  unfold iblk
  rw [View.read_apply]
  show V m c main_arg1 _ = m (c.tc.loc main_arg1) _
  rw [V_main_arg1]
  congr 1
  funext a
  apply Fin.ext
  match a with
  | ⟨0, _⟩ => show win0_1.index t 0 * 4096 + 1 * k.val = 4096 * t.val + k.val; rw [idx_facts1 t]; omega

/-! ## The chain is the sum -/

/-- One row's loss, read off the argument arrays. -/
def rowLoss (c : Dev nD) (i : Fin 16777216) : EReal :=
  rowK w0 w1 (m ((c : Thread nD τ).loc main_arg0) (ix2 i 0)) (m ((c : Thread nD τ).loc main_arg0) (ix2 i 1))
    (m ((c : Thread nD τ).loc main_arg1) (ix1 i))

/-- Block `t`'s sum (zero past the grid, so that it is a function of a natural number). -/
def bsum (c : Dev nD) (t : ℕ) : EReal :=
  if ht : t < cfg0.N then ∑ k : Fin 4096, rowLoss m c (rowOf ⟨t, ht⟩ k) else 0

theorem pay4_block (c : Dev nD) (t : Fin cfg0.N) (j : S1x1.Idx) :
    k0_pay4 (F := Ideal) (xblk m c t) (tblk m c t) j = bsum m c t.val := by
  rw [pay4_apply]
  unfold bsum rowLoss
  rw [dif_pos t.isLt]
  refine Finset.sum_congr rfl fun k _ => ?_
  rw [xblk_apply, xblk_apply, tblk_apply]

theorem acc_apply (c : Dev nD) : ∀ (n : ℕ) (h : n < cfg0.N) (j : S1x1.Idx),
    acc m c n h j = ∑ t ∈ Finset.range (n + 1), bsum m c t
  | 0, h, j => by
    show k0_pay1 (F := Ideal) _ _ j = _
    rw [pay1_apply, pay3_apply, zero_add, pay4_block, Finset.sum_range_one]
  | n + 1, h, j => by
    show k0_pay1 (F := Ideal) _ _ j = _
    rw [pay1_apply, acc_apply c n _ j, pay4_block, Finset.sum_range_succ _ (n + 1)]

/-- The whole chain is the sum over all rows. -/
theorem total (c : Dev nD) (j : S1x1.Idx) :
    acc m c 4095 tLast.isLt j = ∑ i : Fin 16777216, rowLoss m c i := by
  rw [acc_apply, ← sum_blocks, Finset.sum_range (fun t => bsum m c t)]
  refine Finset.sum_congr rfl fun t _ => ?_
  have ht : t.val < cfg0.N := lt_of_lt_of_eq t.isLt (show 4096 = cfg0.N from N_0.symm)
  unfold bsum
  rw [dif_pos ht]
  rfl

/-- The kernel's scalar result: the sum of all rows' losses over the row count. -/
theorem result_apply (c : Dev nD) :
    shapeCast S_ (result m c) shapeCasts_S1x1_S_ ix0
      = Ideal.div (∑ i : Fin 16777216, rowLoss m c i) (Ideal.ofBits .f32 0x4B800000#32) := by
  rw [shapeCast_apply _ _ ix0 (ix2 (0 : Fin 1) (0 : Fin 1)) (by rw [Shape.rowMajor_val_two]; rfl)]
  show k0_pay2 (F := Ideal) _ _ = _
  rw [pay2_apply, total]

end Cert.KernelIdeal.KSum

end
-- ==== Proof.RefTerm.lean ====
/-
  The reference's result as one composed term of its two arguments, in the reference's own order:
    lsm x      the log-softmax of the [N, 2] logits along axis 1: x minus its row maximum, minus the log of the row
               sum of the exponentials;
    cls tg     the labels with a negative label shifted up by two (numpy's wrap of a negative index);
    rows       the row numbers 0 .. N-1 (an iota, wrapped the same way);
    picked     the gather of lsm x at the [N, 2] table of (row, label) pairs: the label's log-probability;
    wts        the gather of the two-entry weight table at the labels;
    losses     (-wts) * (1 - e^picked)^2 * picked;
    out        their sum from zero, divided by N.
-/
import proofs.«422294_j40999757807958_2_alg».proof.Proof.Gen.ReferenceIdeal

noncomputable section

namespace Cert.ReferenceIdeal.RefRun

open Cert.ReferenceIdeal Cert.ReferenceIdeal.Gen Idealize.ShloMosaic

variable {F : FTy → Type} [FloatOps F]

/-- The log-softmax along axis 1. -/
def lsm (x : FVec F S16777216x2 .f32) : FVec F S16777216x2 .f32 :=
  subf
    (subf x (broadcastInDim S16777216x2 ![0, 1] bcast_S16777216x1_S16777216x2_0_1 (broadcastInDim S16777216x1 ![0] bcast_S16777216_S16777216x1_0
      (maximumf (broadcastInDim S16777216 ![] bcast_S_S16777216 (constant S_ .f32 0xFF800000#32))
        (Host.reduce FloatOps.maximumf x (constant S_ .f32 0xFF800000#32) reducesTo_S16777216x2_S16777216_d1 h_S_)))))
    (broadcastInDim S16777216x2 ![0, 1] bcast_S16777216x1_S16777216x2_0_1 (Host.log (broadcastInDim S16777216x1 ![0] bcast_S16777216_S16777216x1_0
      (Host.reduceAdd
        (Host.exp (subf x (broadcastInDim S16777216x2 ![0, 1] bcast_S16777216x1_S16777216x2_0_1 (broadcastInDim S16777216x1 ![0] bcast_S16777216_S16777216x1_0
          (maximumf (broadcastInDim S16777216 ![] bcast_S_S16777216 (constant S_ .f32 0xFF800000#32))
            (Host.reduce FloatOps.maximumf x (constant S_ .f32 0xFF800000#32) reducesTo_S16777216x2_S16777216_d1 h_S_))))))
        (constant S_ .f32 0x00000000#32) reducesTo_S16777216x2_S16777216_d1 h_S_))))

/-- The labels, a negative one shifted up by the number of classes. -/
def cls (tg : IVec S16777216 32) : IVec S16777216 32 :=
  select (cmpi .slt tg (broadcastInDim S16777216 ![] bcast_S_S16777216 (constantI S_ 32 0#32)))
    (addi tg (broadcastInDim S16777216 ![] bcast_S_S16777216 (constantI S_ 32 2#32))) tg

/-- The row numbers, wrapped the same way. -/
def rows : IVec S16777216 32 :=
  select (cmpi .slt (iotaInDim S16777216 32 0) (broadcastInDim S16777216 ![] bcast_S_S16777216 (constantI S_ 32 0#32)))
    (addi (iotaInDim S16777216 32 0) (broadcastInDim S16777216 ![] bcast_S_S16777216 (constantI S_ 32 16777216#32))) (iotaInDim S16777216 32 0)

/-- The [N, 2] table of (row, label) start indices. -/
def pairs (tg : IVec S16777216 32) : IVec S16777216x2 32 :=
  concatenate S16777216x2 1
    [⟨S16777216x1, broadcastInDim S16777216x1 ![0] bcast_S16777216_S16777216x1_0 rows⟩,
     ⟨S16777216x1, broadcastInDim S16777216x1 ![0] bcast_S16777216_S16777216x1_0 (cls tg)⟩]
    concatenates_S16777216x1_S16777216x1_S16777216x2_d1

/-- The label's log-probability, row by row. -/
def picked (x : FVec F S16777216x2 .f32) (tg : IVec S16777216 32) : FVec F S16777216 .f32 :=
  Host.gather gather_S16777216x2_S16777216x2_S16777216_n_01_n_n_01_1_11 (lsm x) (pairs tg)

/-- The two-entry weight table. -/
def wtab : FVec F S2 .f32 := fun i => FloatOps.ofBits .f32 (lit0 (S2.rowMajor i))

/-- The label's weight, row by row. -/
def wts (tg : IVec S16777216 32) : FVec F S16777216 .f32 :=
  Host.gather gather_S2_S16777216x1_S16777216_n_0_n_n_0_1_1 (wtab (F := F))
    (broadcastInDim S16777216x1 ![0] bcast_S16777216_S16777216x1_0 (cls tg))

/-- The losses, row by row. -/
def losses (x : FVec F S16777216x2 .f32) (tg : IVec S16777216 32) : FVec F S16777216 .f32 :=
  mulf
    (mulf (Host.negf (wts (F := F) tg))
      (Host.powf (subf (broadcastInDim S16777216 ![] bcast_S_S16777216 (constant S_ .f32 0x3F800000#32)) (Host.exp (picked x tg)))
        (broadcastInDim S16777216 ![] bcast_S_S16777216 (constant S_ .f32 0x40000000#32))))
    (picked x tg)

/-- The mean loss. -/
def out (x : FVec F S16777216x2 .f32) (tg : IVec S16777216 32) : FVec F S_ .f32 :=
  Host.divf (Host.reduceAdd (losses x tg) (constant S_ .f32 0x00000000#32) reducesTo_S16777216_S_d0 h_S_)
    (constant S_ .f32 0x4B800000#32)

end Cert.ReferenceIdeal.RefRun

end
-- ==== Proof.RefRun.lean ====
/-
  The reference program's run, read back.  Its @main is a straight line of fifty-eight host operations (the call of
  log_softmax unfolded at its call site, over that call's buffers): every weakly fair execution terminates with the
  result buffer at the operations' composed term of the two arguments (RefTerm's `out`), and the arguments unchanged.
-/
import proofs.«422294_j40999757807958_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- @main's fifty-eight operations, in order: the weight table; log_softmax's fifteen over the call's buffers; the
    row numbers and the labels wrapped; the pair table; the first gather; the focal term; the labels wrapped again and
    the second gather; the products; the sum and the quotient. -/
abbrev ops : List (HloOp τ sig (Elt F)) :=
  [ nullary main_cst (fun i => FloatOps.ofBits .f32 (lit0 (S2.rowMajor i))),
    nullary main_call0_cst (constant S_ .f32 0xFF800000#32),
    binary main_arg0 main_call0_cst main_call0_v0 (fun x v => Host.reduce FloatOps.maximumf x v reducesTo_S16777216x2_S16777216_d1 h_S_),
    nullary main_call0_cst_0 (constant S_ .f32 0xFF800000#32),
    unary main_call0_cst_0 main_call0_v1 (broadcastInDim S16777216 ![] bcast_S_S16777216),
    binary main_call0_v1 main_call0_v0 main_call0_v2 maximumf,
    unary main_call0_v2 main_call0_v3 (broadcastInDim S16777216x1 ![0] bcast_S16777216_S16777216x1_0),
    unary main_call0_v3 main_call0_v4 (broadcastInDim S16777216x2 ![0, 1] bcast_S16777216x1_S16777216x2_0_1),
    binary main_arg0 main_call0_v4 main_call0_v5 subf,
    unary main_call0_v5 main_call0_v6 Host.exp,
    nullary main_call0_cst_1 (constant S_ .f32 0x00000000#32),
    binary main_call0_v6 main_call0_cst_1 main_call0_v7 (fun x v => Host.reduceAdd x v reducesTo_S16777216x2_S16777216_d1 h_S_),
    unary main_call0_v7 main_call0_v8 (broadcastInDim S16777216x1 ![0] bcast_S16777216_S16777216x1_0),
    unary main_call0_v8 main_call0_v9 Host.log,
    unary main_call0_v9 main_call0_v10 (broadcastInDim S16777216x2 ![0, 1] bcast_S16777216x1_S16777216x2_0_1),
    binary main_call0_v5 main_call0_v10 main_v0 subf,
    nullary main_v1 (iotaInDim S16777216 32 0),
    nullary main_c (constantI S_ 32 0#32),
    unary main_c main_v2 (broadcastInDim S16777216 ![] bcast_S_S16777216),
    binary main_v1 main_v2 main_v3 (cmpi .slt),
    nullary main_c_0 (constantI S_ 32 16777216#32),
    unary main_c_0 main_v4 (broadcastInDim S16777216 ![] bcast_S_S16777216),
    binary main_v1 main_v4 main_v5 addi,
    ternary main_v3 main_v5 main_v1 main_v6 select,
    nullary main_c_1 (constantI S_ 32 0#32),
    unary main_c_1 main_v7 (broadcastInDim S16777216 ![] bcast_S_S16777216),
    binary main_arg1 main_v7 main_v8 (cmpi .slt),
    nullary main_c_2 (constantI S_ 32 2#32),
    unary main_c_2 main_v9 (broadcastInDim S16777216 ![] bcast_S_S16777216),
    binary main_arg1 main_v9 main_v10 addi,
    ternary main_v8 main_v10 main_arg1 main_v11 select,
    unary main_v6 main_v12 (broadcastInDim S16777216x1 ![0] bcast_S16777216_S16777216x1_0),
    unary main_v11 main_v13 (broadcastInDim S16777216x1 ![0] bcast_S16777216_S16777216x1_0),
    binary main_v12 main_v13 main_v14 (fun a b => concatenate S16777216x2 1 [⟨S16777216x1, a⟩, ⟨S16777216x1, b⟩] concatenates_S16777216x1_S16777216x1_S16777216x2_d1),
    binary main_v0 main_v14 main_v15 (fun x i => Host.gather gather_S16777216x2_S16777216x2_S16777216_n_01_n_n_01_1_11 x i),
    unary main_v15 main_v16 Host.exp,
    nullary main_cst_3 (constant S_ .f32 0x3F800000#32),
    unary main_cst_3 main_v17 (broadcastInDim S16777216 ![] bcast_S_S16777216),
    binary main_v17 main_v16 main_v18 subf,
    nullary main_cst_4 (constant S_ .f32 0x40000000#32),
    unary main_cst_4 main_v19 (broadcastInDim S16777216 ![] bcast_S_S16777216),
    binary main_v18 main_v19 main_v20 Host.powf,
    nullary main_c_5 (constantI S_ 32 0#32),
    unary main_c_5 main_v21 (broadcastInDim S16777216 ![] bcast_S_S16777216),
    binary main_arg1 main_v21 main_v22 (cmpi .slt),
    nullary main_c_6 (constantI S_ 32 2#32),
    unary main_c_6 main_v23 (broadcastInDim S16777216 ![] bcast_S_S16777216),
    binary main_arg1 main_v23 main_v24 addi,
    ternary main_v22 main_v24 main_arg1 main_v25 select,
    unary main_v25 main_v26 (broadcastInDim S16777216x1 ![0] bcast_S16777216_S16777216x1_0),
    binary main_cst main_v26 main_v27 (fun x i => Host.gather gather_S2_S16777216x1_S16777216_n_0_n_n_0_1_1 x i),
    unary main_v27 main_v28 Host.negf,
    binary main_v28 main_v20 main_v29 mulf,
    binary main_v29 main_v15 main_v30 mulf,
    nullary main_cst_7 (constant S_ .f32 0x00000000#32),
    binary main_v30 main_cst_7 main_v31 (fun x v => Host.reduceAdd x v reducesTo_S16777216_S_d0 h_S_),
    nullary main_cst_8 (constant S_ .f32 0x4B800000#32),
    binary main_v31 main_cst_8 main_v32 Host.divf ]

attribute [local irreducible] Host.reduce in
set_option maxRecDepth 8192 in
/-- @main is that straight line: log_softmax's definition unfolded at its call and the record at its fields, both
    sides are one chain of host steps once sequencing is reassociated (the call's typed references are the buffers;
    the reduction stays folded while the two spellings are compared). -/
theorem main_eq (c : Dev nD) : main (F := F) c = seq ops := by
  simp only [main, fn_log_softmax.body, seq, bind_assoc, pure_bind]
  rfl

set_option maxRecDepth 8192 in
set_option maxHeartbeats 2000000 in
/-- The fold of the operations at the result buffer is the composed term: each operation's result at its own buffer
    is its function's value, at any other buffer what was there. -/
theorem out_eq (V : Valuation τ sig (Elt F)) :
    after ops V (main_v32 : DevRef τ sig) = out (V (main_arg0 : DevRef τ sig)) (V (main_arg1 : DevRef τ sig)) := by
  after_results_simp
  unfold out losses picked wts pairs cls rows lsm wtab
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub ..,
    nullary_bufs_sub .., nullary_bufs_sub .., unary_bufs_sub .., binary_bufs_sub .., nullary_bufs_sub .., unary_bufs_sub ..,
    binary_bufs_sub .., ternary_bufs_sub ..,
    nullary_bufs_sub .., unary_bufs_sub .., binary_bufs_sub .., nullary_bufs_sub .., unary_bufs_sub .., binary_bufs_sub ..,
    ternary_bufs_sub ..,
    unary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub ..,
    nullary_bufs_sub .., unary_bufs_sub .., binary_bufs_sub .., nullary_bufs_sub .., unary_bufs_sub .., binary_bufs_sub ..,
    ternary_bufs_sub .., unary_bufs_sub .., binary_bufs_sub ..,
    unary_bufs_sub .., binary_bufs_sub .., binary_bufs_sub .., nullary_bufs_sub .., binary_bufs_sub .., nullary_bufs_sub ..,
    binary_bufs_sub ..⟩

/-- On every device, for any float values, from any memory with zero counters: every weakly fair execution of @main
    terminates with the result at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's composed term read on the extended reals, under the label range.

  At row n: the log-softmax entry (n, j) is `logp` of the row's pair at its entry j (the row maximum a fold of max from
  minus infinity over the two entries; the row sum of exponentials from zero); the row number n wraps to itself and,
  for a label in {0, 1}, so does the label; the pair gather reads the table at the (row, label) start index clamped
  into the table, that is at (n, label); the take reads the weight table at the label.  So the loss of row n is the
  reference's spelling `rowR` at entry k = label, and the result is zero plus the sum over all rows, over the row count.
-/
import proofs.«422294_j40999757807958_2_alg».proof.Proof.RefTerm
import proofs.«422294_j40999757807958_2_alg».proof.Proof.RowLoss
import Idealize.ShloMosaic.Lib.IdealHost
import Idealize.ShloMosaic.Lib.ValueIdxRank1
import Idealize.ShloMosaic.Lib.Pipeline.Value
import Idealize.ShloMosaic.Lib.StableHlo.Predicate
import Idealize.ShloMosaic.PureOps.Reduce

noncomputable section

namespace Cert.ReferenceIdeal.RefValue

open Cert.ReferenceIdeal Cert.ReferenceIdeal.Gen Cert.ReferenceIdeal.RefRun Idealize.ShloMosaic Idealize.ShloMosaic.ValueIdx Cert.Focal
open Idealize.ShloMosaic.StableHlo.Predicate (slt_iff_toNat toInt_eq_toNat_of_lt)

/-! ## The pair gather read at a row -/

abbrev d2 : GatherDims S16777216x2 S16777216x2 S16777216 := gather_S16777216x2_S16777216x2_S16777216_n_01_n_n_01_1_11

theorem d2_ob : d2.operandBatchingDims = [] := rfl
theorem d2_coll : d2.collapsedSliceDims = [0, 1] := rfl
theorem d2_sim : d2.startIndexMap = [0, 1] := rfl
theorem d2_ivd : d2.indexVectorDim = 1 := rfl

theorem ix1_val (n : Fin 16777216) (X : Fin 1) : ((ix1 n : S16777216.Idx) X).val = n.val := by
  have hX : X = 0 := Subsingleton.elim _ _
  subst hX; rfl

/-- Component c of row n's start index is entry (n, c) of the index table. -/
theorem siIdx_eq (n : Fin 16777216) (c : Fin d2.startIndexMap.length) (c' : Fin 2) (hc : c.val = c'.val) :
    d2.siIdx (ix1 n) c = ix2 n c' := by
  funext b
  match b with
  | ⟨0, _⟩ =>
    unfold GatherDims.siIdx
    rw [dif_neg (by rw [d2_ivd]; exact Nat.zero_ne_one)]
    unfold GatherDims.siCoord
    apply Fin.ext
    simp only [Fin.val_cast]
    exact ix1_val n _
  | ⟨1, _⟩ =>
    unfold GatherDims.siIdx
    rw [dif_pos (by rw [d2_ivd])]
    exact Fin.ext hc

theorem not_batching (a : Fin 2) : a ∉ d2.operandBatchingDims := by rw [d2_ob]; exact List.not_mem_nil
theorem not_kept (a : Fin 2) : a ∉ d2.sKept := by rw [GatherDims.mem_sKept, d2_coll]; fin_cases a <;> simp

theorem opIdx0 (idx : IVec S16777216x2 32) (n : Fin 16777216) :
    (d2.operandIdx (ix1 n) idx (0 : Fin 2)).val = min (idx (ix2 n (0 : Fin 2))).toInt.toNat 16777215 := by
  have hm : (0 : Fin 2) ∈ d2.startIndexMap := by rw [d2_sim]; simp
  simp only [GatherDims.operandIdx, GatherDims.batchCoord_eq_zero _ _ _ (not_batching 0), GatherDims.offCoord_eq_zero _ _ _ (not_kept 0),
    Nat.add_zero, GatherDims.start, dif_pos hm]
  rw [siIdx_eq n _ (0 : Fin 2) (by show List.idxOf (0 : Fin 2) d2.startIndexMap = 0; rw [d2_sim]; simp)]
  rfl

theorem opIdx1 (idx : IVec S16777216x2 32) (n : Fin 16777216) :
    (d2.operandIdx (ix1 n) idx (1 : Fin 2)).val = min (idx (ix2 n (1 : Fin 2))).toInt.toNat 1 := by
  have hm : (1 : Fin 2) ∈ d2.startIndexMap := by rw [d2_sim]; simp
  simp only [GatherDims.operandIdx, GatherDims.batchCoord_eq_zero _ _ _ (not_batching 1), GatherDims.offCoord_eq_zero _ _ _ (not_kept 1),
    Nat.add_zero, GatherDims.start, dif_pos hm]
  rw [siIdx_eq n _ (1 : Fin 2) (by show List.idxOf (1 : Fin 2) d2.startIndexMap = 1; rw [d2_sim]; simp)]
  rfl

/-- Row n of the pair gather reads the operand at the row's two start indices, each read signed and clamped into
    its axis. -/
theorem gather2_apply {α : Type} (x : S16777216x2.Idx → α) (idx : IVec S16777216x2 32) (n : Fin 16777216) :
    Host.gather d2 x idx (ix1 n)
      = x (ix2 ⟨min (idx (ix2 n (0 : Fin 2))).toInt.toNat 16777215, by omega⟩ ⟨min (idx (ix2 n (1 : Fin 2))).toInt.toNat 1, by omega⟩) := by
  unfold Host.gather
  congr 1
  funext a
  apply Fin.ext
  match a with
  | ⟨0, _⟩ => exact opIdx0 idx n
  | ⟨1, _⟩ => exact opIdx1 idx n

/-! ## Layout -/

/-- A per-row vector as a column. -/
theorem col_apply {α : Type} (v : S16777216.Idx → α) (n : Fin 16777216) (u : Fin 1) :
    broadcastInDim S16777216x1 ![0] bcast_S16777216_S16777216x1_0 v (ix2 n u) = v (ix1 n) :=
  broadcastInDim_apply _ _ v _ _ fun a => by
    match a with
    | ⟨0, _⟩ => exact (if_neg (show ¬((16777216 : ℕ) = 1) by norm_num)).symm

/-- A column laid over the two lanes. -/
theorem lanes_apply {α : Type} (v : S16777216x1.Idx → α) (n : Fin 16777216) (q : Fin 2) :
    broadcastInDim S16777216x2 ![0, 1] bcast_S16777216x1_S16777216x2_0_1 v (ix2 n q) = v (ix2 n (0 : Fin 1)) :=
  broadcastInDim_apply _ _ v _ _ fun a => by
    match a with
    | ⟨0, _⟩ => exact (if_neg (show ¬((16777216 : ℕ) = 1) by norm_num)).symm
    | ⟨1, _⟩ => exact (if_pos (show (1 : ℕ) = 1 from rfl)).symm

set_option maxRecDepth 8192 in
/-- The logits' array reduces along its lanes to a per-row vector. -/
theorem hred : S16777216x2.Reduces [1] S16777216 := by decide

theorem lift_row (n : Fin 16777216) (j : Fin 2) :
    hred.lift (ix1 n) j = ix2 n j := by
  funext a
  match a with
  | ⟨0, _⟩ => rfl
  | ⟨1, _⟩ => rfl

/-! ## The log-softmax at an entry -/

variable (X : FVec Ideal S16777216x2 .f32) (T : IVec S16777216 32)

/-- The row maxima. -/
def rmaxR : FVec Ideal S16777216 .f32 :=
  maximumf (broadcastInDim S16777216 ![] bcast_S_S16777216 (constant S_ .f32 0xFF800000#32))
    (Host.reduce FloatOps.maximumf X (constant S_ .f32 0xFF800000#32) reducesTo_S16777216x2_S16777216_d1 h_S_)

/-- The logits less their row maximum. -/
def shiftR : FVec Ideal S16777216x2 .f32 :=
  subf X (broadcastInDim S16777216x2 ![0, 1] bcast_S16777216x1_S16777216x2_0_1
    (broadcastInDim S16777216x1 ![0] bcast_S16777216_S16777216x1_0 (rmaxR X)))

theorem lsm_eq : lsm X = subf (shiftR X) (broadcastInDim S16777216x2 ![0, 1] bcast_S16777216x1_S16777216x2_0_1
    (Host.log (broadcastInDim S16777216x1 ![0] bcast_S16777216_S16777216x1_0
      (Host.reduceAdd (Host.exp (shiftR X)) (constant S_ .f32 0x00000000#32) reducesTo_S16777216x2_S16777216_d1 h_S_)))) := rfl

/-- The host's maximum along the lanes, from minus infinity, of a two-lane row is the larger entry. -/
theorem rowmaxR_apply (n : Fin 16777216) :
    Host.reduce FloatOps.maximumf X (constant S_ .f32 0xFF800000#32) reducesTo_S16777216x2_S16777216_d1 h_S_ (ix1 n)
      = max (X (ix2 n 0)) (X (ix2 n 1)) :=
  (Host.reduce_eq_fold_single FloatOps.maximumf X (constant S_ .f32 0xFF800000#32) reducesTo_S16777216x2_S16777216_d1 hred h_S_ (ix1 n)).trans (by
    refine (fold_two FloatOps.maximumf _ (fun j' : Fin 2 => X (hred.lift (ix1 n) j'))).trans ?_
    rw [lift_row, lift_row]
    show max (X (ix2 n 0)) (max (X (ix2 n 1)) (Ideal.ofBits .f32 0xFF800000#32)) = _
    rw [ofBits_neg_inf_f32, max_bot_right])

theorem rmaxR_apply (n : Fin 16777216) : rmaxR X (ix1 n) = max (X (ix2 n 0)) (X (ix2 n 1)) := by
  unfold rmaxR
  rw [maximumf_apply, rowmaxR_apply, broadcastInDim_scalar_apply, constant_apply, ofBits_neg_inf_f32, max_bot_left]

theorem shiftR_apply (n : Fin 16777216) (j : Fin 2) :
    shiftR X (ix2 n j) = X (ix2 n j) - max (X (ix2 n 0)) (X (ix2 n 1)) := by
  unfold shiftR
  rw [subf_apply, lanes_apply, col_apply, rmaxR_apply]

theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The host's sum along the lanes, from zero, of a two-lane row is the sum of the two entries. -/
theorem rowsumR_apply (v : FVec Ideal S16777216x2 .f32) (n : Fin 16777216) :
    Host.reduceAdd v (constant S_ .f32 0x00000000#32) reducesTo_S16777216x2_S16777216_d1 h_S_ (ix1 n)
      = v (ix2 n 0) + v (ix2 n 1) :=
  (hostReduceAdd_apply v _ _ _ (ix1 n)).trans
    ((Ideal.hostReduceAdd_single reducesTo_S16777216x2_S16777216_d1 hred v _ (ix1 n)).trans (by
      rw [constant_apply, Ideal.ofBits_zero_f32, zero_add]
      refine (Fin.sum_univ_two (fun j' : Fin 2 => v (hred.lift (ix1 n) j'))).trans ?_
      rw [lift_row, lift_row]))

theorem lsm_apply (n : Fin 16777216) (j : Fin 2) :
    lsm X (ix2 n j) = logp (X (ix2 n 0)) (X (ix2 n 1)) (X (ix2 n j)) := by
  rw [lsm_eq]
  unfold logp
  rw [subf_apply, lanes_apply, shiftR_apply, hostLog_apply, col_apply, rowsumR_apply, hostExp_apply, hostExp_apply,
    shiftR_apply, shiftR_apply]

/-! ## The indices -/

/-- A word below 2^31 is not negative. -/
theorem not_slt_zero (a : BitVec 32) (ha : a.toNat < 2 ^ 31) : IntOp.cmpi .slt a 0#32 = 0#1 :=
  eq_zero_of_ne_one fun h => by
    have := (slt_iff_toNat ha (by decide)).mp h
    simp at this

theorem rows_apply (n : Fin 16777216) : rows (ix1 n) = BitVec.ofNat 32 n.val := by
  unfold rows
  rw [select_apply]
  show Scalar.select (IntOp.cmpi .slt (BitVec.ofNat 32 n.val) 0#32) _ (BitVec.ofNat 32 n.val) = _
  rw [not_slt_zero _ (by rw [BitVec.toNat_ofNat]; have := n.isLt; omega), select_zero]

theorem cls_apply (n : Fin 16777216) (hT : (T (ix1 n)).toNat < 2) : cls T (ix1 n) = T (ix1 n) := by
  unfold cls
  rw [select_apply]
  show Scalar.select (IntOp.cmpi .slt (T (ix1 n)) 0#32) _ (T (ix1 n)) = _
  rw [not_slt_zero _ (by omega), select_zero]

theorem pairs_row (n : Fin 16777216) : pairs T (ix2 n (0 : Fin 2)) = BitVec.ofNat 32 n.val := by
  unfold pairs
  rw [concatenate_pair_apply_left (t := S16777216x2) (s₁ := S16777216x1) (s₂ := S16777216x1) (1 : Fin 2) _ _ _ (ix2 n (0 : Fin 2)) rfl (ix2 n (0 : Fin 1))
    (fun b => by match b with | ⟨0, _⟩ => rfl | ⟨1, _⟩ => rfl), col_apply, rows_apply]

theorem pairs_cls (n : Fin 16777216) (hT : (T (ix1 n)).toNat < 2) : pairs T (ix2 n (1 : Fin 2)) = T (ix1 n) := by
  unfold pairs
  rw [concatenate_pair_apply_right (t := S16777216x2) (s₁ := S16777216x1) (s₂ := S16777216x1) (1 : Fin 2) _ _ _ (ix2 n (1 : Fin 2)) rfl rfl (ix2 n (0 : Fin 1))
    (fun b hb => by match b with | ⟨0, _⟩ => rfl | ⟨1, _⟩ => exact absurd rfl hb) rfl, col_apply, cls_apply T n hT]

/-- The label as an entry number. -/
def kOf (t : BitVec 32) (ht : t.toNat < 2) : Fin 2 := ⟨t.toNat, ht⟩

theorem picked_apply (n : Fin 16777216) (hT : (T (ix1 n)).toNat < 2) :
    picked X T (ix1 n) = logp (X (ix2 n 0)) (X (ix2 n 1)) (X (ix2 n (kOf (T (ix1 n)) hT))) := by
  unfold picked
  rw [gather2_apply]
  have h0 : min (pairs T (ix2 n (0 : Fin 2))).toInt.toNat 16777215 = n.val := by
    rw [pairs_row, toInt_eq_toNat_of_lt (by rw [BitVec.toNat_ofNat]; have := n.isLt; omega), BitVec.toNat_ofNat]
    have := n.isLt
    omega
  have h1 : min (pairs T (ix2 n (1 : Fin 2))).toInt.toNat 1 = (T (ix1 n)).toNat := by
    rw [pairs_cls T n hT, toInt_eq_toNat_of_lt (by omega)]
    omega
  have e : (ix2 (⟨min (pairs T (ix2 n (0 : Fin 2))).toInt.toNat 16777215, by omega⟩ : Fin 16777216)
      (⟨min (pairs T (ix2 n (1 : Fin 2))).toInt.toNat 1, by omega⟩ : Fin 2) : S16777216x2.Idx) = ix2 n (kOf (T (ix1 n)) hT) := by
    funext a
    match a with
    | ⟨0, _⟩ => exact Fin.ext h0
    | ⟨1, _⟩ => exact Fin.ext h1
  rw [e, lsm_apply]

/-! ## The weights -/

theorem wts_apply (n : Fin 16777216) (hT : (T (ix1 n)).toNat < 2) :
    wts (F := Ideal) T (ix1 n) = if kOf (T (ix1 n)) hT = 0 then w0 else w1 := by
  unfold wts
  have hg := Idealize.ShloMosaic.StableHlo.Predicate.gather_take gather_S2_S16777216x1_S16777216_n_0_n_n_0_1_1 rfl rfl rfl rfl
    (wtab (F := Ideal)) (broadcastInDim S16777216x1 ![0] bcast_S16777216_S16777216x1_0 (cls T)) n (by decide)
  have e1 : (Shape.Idx.ofFin n : S16777216.Idx) = ix1 n := by
    funext a; match a with | ⟨0, _⟩ => rfl
  rw [e1] at hg
  rw [hg]
  have e2 : (Idealize.ShloMosaic.StableHlo.Predicate.ixP n : S16777216x1.Idx) = ix2 n (0 : Fin 1) := by
    funext a; match a with | ⟨0, _⟩ => rfl | ⟨1, _⟩ => rfl
  have hval : min (broadcastInDim S16777216x1 ![0] bcast_S16777216_S16777216x1_0 (cls T)
      (Idealize.ShloMosaic.StableHlo.Predicate.ixP n)).toInt.toNat (2 - 1) = (T (ix1 n)).toNat := by
    rw [e2, col_apply, cls_apply T n hT, toInt_eq_toNat_of_lt (by omega)]
    omega
  have hfin : (⟨min (broadcastInDim S16777216x1 ![0] bcast_S16777216_S16777216x1_0 (cls T)
      (Idealize.ShloMosaic.StableHlo.Predicate.ixP n)).toInt.toNat (2 - 1), by omega⟩ : Fin 2) = kOf (T (ix1 n)) hT :=
    Fin.ext hval
  rw [hfin]
  generalize kOf (T (ix1 n)) hT = k
  fin_cases k
  · rfl
  · rfl

/-! ## The losses and the result -/

theorem hostNegf_apply {s : Shape} (v : FVec Ideal s .f32) (i : s.Idx) : Host.negf v i = -(v i) := rfl
theorem hostPowf_apply {s : Shape} (a b : FVec Ideal s .f32) (i : s.Idx) : Host.powf a b i = Ideal.pow (a i) (b i) := rfl

/-- Row n's loss is the reference's spelling at the label's entry. -/
theorem losses_apply (n : Fin 16777216) (hT : (T (ix1 n)).toNat < 2) :
    losses X T (ix1 n)
      = rowR w0 w1 (X (ix2 n 0)) (X (ix2 n 1)) (Ideal.ofBits .f32 0x40000000#32) (kOf (T (ix1 n)) hT) := by
  unfold losses rowR
  rw [mulf_apply, mulf_apply, hostNegf_apply, hostPowf_apply, subf_apply, hostExp_apply, wts_apply T n hT,
    picked_apply X T n hT, broadcastInDim_scalar_apply, broadcastInDim_scalar_apply, constant_apply, constant_apply,
    Ideal.ofBits_one_f32]
  generalize kOf (T (ix1 n)) hT = k
  fin_cases k
  · rfl
  · rfl

/-- The reference's result: zero plus the sum of all rows' losses, over the row count. -/
theorem out_apply (hT : ∀ i : S16777216.Idx, (T i).toNat < 2) :
    out X T ix0 = Ideal.div
      (∑ n : Fin 16777216, rowR w0 w1 (X (ix2 n 0)) (X (ix2 n 1)) (Ideal.ofBits .f32 0x40000000#32) (kOf (T (ix1 n)) (hT _)))
      (Ideal.ofBits .f32 0x4B800000#32) := by
  unfold out
  rw [hostDivf_apply, hostReduceAdd_apply, Ideal.hostReduceAdd_total reducesTo_S16777216_S_d0 (fun b => b.elim0),
    constant_apply, constant_apply, Ideal.ofBits_zero_f32, zero_add]
  refine congrArg (fun s => Ideal.div s (Ideal.ofBits .f32 0x4B800000#32)) ?_
  refine Fintype.sum_equiv idxEquiv1 _ _ fun i => ?_
  rw [eq_ix1 i]
  exact losses_apply X T (i 0) (hT _)

end Cert.ReferenceIdeal.RefValue

end
-- ==== Proof.PreFacts.lean ====
/-
  The precondition, read back.  The predicate is the conjunction of two `all`s: every logit's absolute value is below
  plus infinity, and every label is at least 0 and below 2 as a signed word.  So under it every logit is a real number
  (an extended real whose absolute value max x (-x) is below plus infinity is neither infinity) and every label, read
  as a natural number, is 0 or 1.
-/
import proofs.«422294_j40999757807958_2_alg».proof.Pre_finite_inputs
import proofs.«422294_j40999757807958_2_alg».proof.Proof.Gen.Pre_finite_inputs
import Idealize.ShloMosaic.Lib.ReduceAll
import Idealize.ShloMosaic.Lib.IdealHost
import Idealize.ShloMosaic.Lib.ValueIdx
import Idealize.ShloMosaic.PureOps.Ideal.Laws

noncomputable section

namespace Cert.PreFacts

open Idealize.ShloMosaic Idealize.ShloMosaic.ValueIdx Cert.Pre_finite_inputs Cert.Pre_finite_inputs.Gen

instance : Subsingleton S_.Idx := ⟨fun a b => funext fun d => d.elim0⟩

/-- The f32 pattern 0x7F800000 is plus infinity. -/
theorem ofBits_inf_f32 : Ideal.ofBits .f32 0x7F800000#32 = ⊤ := by simp [Ideal.ofBits, Ideal.ieee]

/-- An extended real whose absolute value is below plus infinity is a real number. -/
theorem real_of_abs_lt_top (x : EReal) (h : max x (-x) < ⊤) : ∃ r : ℝ, x = (r : EReal) := by
  have h' := max_lt_iff.mp h
  induction x using EReal.rec with
  | bot => exact absurd h'.2 (by simp)
  | top => exact absurd h'.1 (by simp)
  | coe r => exact ⟨r, rfl⟩

/-- A signed word at least 0 and below 2 is, as a natural number, below 2. -/
theorem toNat_lt_two (t : BitVec 32) (h0 : (0#32 : BitVec 32).toInt ≤ t.toInt) (h2 : t.toInt < (2#32 : BitVec 32).toInt) :
    t.toNat < 2 := by
  have hz : (0#32 : BitVec 32).toInt = 0 := by decide
  have ht : (2#32 : BitVec 32).toInt = 2 := by decide
  rw [hz] at h0
  rw [ht] at h2
  have hc := BitVec.toInt_eq_toNat_cond t
  have hlt := t.isLt
  split at hc <;> omega

variable (X : FVec Ideal S16777216x2 .f32) (T : IVec S16777216 32)

/-- Under the precondition every logit is real and every label is 0 or 1. -/
theorem decode (h : fn (F := Ideal) X T = fun _ => 1#1) :
    (∀ i : S16777216x2.Idx, ∃ r : ℝ, X i = (r : EReal)) ∧ (∀ i : S16777216.Idx, (T i).toNat < 2) := by
  have h0 := congrFun h ix0
  dsimp only [fn] at h0
  obtain ⟨h1, h2⟩ := IntOp.andi_eq_one.1 h0
  constructor
  · intro i
    have e := Host.reduce_andi_all _ _ _ _ ix0 h1 i
    have e' : Ideal.cmp .olt (max (X i) (-(X i))) (Ideal.ofBits .f32 0x7F800000#32) = 1#1 := e
    rw [ofBits_inf_f32] at e'
    refine real_of_abs_lt_top (X i) ?_
    by_contra hn
    simp [Ideal.cmp, hn] at e'
  · intro i
    have e := Host.reduce_andi_all _ _ _ _ ix0 h2 i
    have e' : IntOp.andi (IntOp.cmpi .sge (T i) 0#32) (IntOp.cmpi .slt (T i) 2#32) = 1#1 := e
    obtain ⟨a, b⟩ := IntOp.andi_eq_one.1 e'
    exact toNat_lt_two (T i) (IntOp.cmpi_sge.1 a) (IntOp.cmpi_slt.1 b)

end Cert.PreFacts

end
-- ==== Proof.lean ====
/-
  The certificate of the two-class focal loss: the Pallas kernel against its jnp reference, over the extended reals,
  for finite logits and labels in {0, 1}.

  Both programs compute the mean over N = 16777216 samples of  -a_t (1 - p_t)^2 log p_t , where (log p_0, log p_1) is the
  log-softmax of the sample's two logits, t its label and (a_0, a_1) = (0.75, 0.25).

  The kernel walks 4096 blocks of 4096 samples; per block it sums the losses and adds the sum to a one-entry accumulator
  carried across the grid, and after the last block stores the accumulator over N.  It picks the label's entry by
  arithmetic on the label as a number, x_0 (1 - t) + x_1 t, which is the entry only for t in {0, 1}: hence the label
  range in the precondition.  The reference gathers the entry at the label, squares with a power, sums all N losses
  at once and divides by N.

  The proof: the kernel's run leaves (sum over all samples of the kernel's spelling of the loss) / N  (KernelValue: the
  accumulator after each point by induction; BlockSum: one block's payload read at an index; KernelSum: the chain of
  block sums is the total sum, blocks being rows of the arrays); the reference's run leaves (0 + sum over all samples
  of the reference's spelling) / N  (RefRun: the run of its fifty-eight host operations; RefValue: the composed term
  read at a row, the two gathers landing on the label's entry); the two spellings agree sample by sample for real
  logits and labels 0 or 1 (RowLoss), which the precondition provides (PreFacts).  The sums are over the same index
  set in the same order of terms; no rearrangement of an infinite value is needed.
-/
import proofs.«422294_j40999757807958_2_alg».proof.Defs
import proofs.«422294_j40999757807958_2_alg».proof.Proof.Gen.Kernel
import proofs.«422294_j40999757807958_2_alg».proof.Proof.Gen.Kernel.Frame
import proofs.«422294_j40999757807958_2_alg».proof.Proof.Gen.KernelIdeal
import proofs.«422294_j40999757807958_2_alg».proof.Proof.Gen.KernelIdeal.Frame
import proofs.«422294_j40999757807958_2_alg».proof.Proof.Gen.ReferenceIdeal
import proofs.«422294_j40999757807958_2_alg».proof.Proof.Gen.Pre_finite_inputs
import proofs.«422294_j40999757807958_2_alg».proof.Proof.KernelSum
import proofs.«422294_j40999757807958_2_alg».proof.Proof.RefRun
import proofs.«422294_j40999757807958_2_alg».proof.Proof.RefValue
import proofs.«422294_j40999757807958_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => ⟨(h c).2.1, (h c).2.2⟩)
    (Cert.ReferenceIdeal.RefRun.run (F := Ideal) m ρ)

/-- The ideal pass rewrote nothing. -/
theorem preserves : Cert.preserves_Kernel_KernelIdeal := trivial

/-- The two results are one extended real: both are the sum over all samples of the sample's loss over N, the kernel's
    spelling of a sample's loss and the reference's agreeing for a real pair of logits and a label that is 0 or 1. -/
theorem result_eq (X : FVec Ideal Cert.KernelIdeal.S16777216x2 .f32) (T : IVec Cert.KernelIdeal.S16777216 32)
    (hX : ∀ i, ∃ r : ℝ, X i = (r : EReal)) (hT : ∀ i, (T i).toNat < 2) :
    (∑ n : Fin 16777216, Cert.Focal.rowK Cert.Focal.w0 Cert.Focal.w1 (X (ix2 n 0)) (X (ix2 n 1)) (T (ix1 n)))
      = ∑ n : Fin 16777216, Cert.Focal.rowR Cert.Focal.w0 Cert.Focal.w1 (X (ix2 n 0)) (X (ix2 n 1))
          (Ideal.ofBits .f32 0x40000000#32) (Cert.ReferenceIdeal.RefValue.kOf (T (ix1 n)) (hT _)) := by
  refine Finset.sum_congr rfl fun n _ => ?_
  obtain ⟨r0, h0⟩ := hX (ix2 n 0)
  obtain ⟨r1, h1⟩ := hX (ix2 n 1)
  rw [h0, h1]
  exact Cert.Focal.rowK_eq_rowR _ _ r0 r1 (T (ix1 n)) (hT _)

theorem algebraic : Cert.algebraic_KernelIdeal_ReferenceIdeal := by
  intro m ρ m' ρ' hpre hagree
  refine ⟨fun c => shapeCast Cert.KernelIdeal.S_ (Cert.KernelIdeal.KValue.result m c) Cert.KernelIdeal.Gen.shapeCasts_S1x1_S_,
    Cert.KernelIdeal.KValue.run (F := Ideal) m ρ, ?_⟩
  refine (θ_run Cert.ReferenceIdeal.defs _ _).mono (fun _ h c => ⟨(h c).1.trans ?_, (h c).2.1, (h c).2.2⟩)
    (Cert.ReferenceIdeal.RefRun.run (F := Ideal) m' ρ')
  obtain ⟨hX, hT⟩ := Cert.PreFacts.decode _ _ (hpre c)
  rw [(hagree c).1, (hagree c).2]
  funext j
  rw [eq_ix0 j]
  refine ((Cert.ReferenceIdeal.RefValue.out_apply _ _ hT).trans ?_).trans (Cert.KernelIdeal.KSum.result_apply m c).symm
  exact congrArg (fun s => Ideal.div s (Ideal.ofBits .f32 0x4B800000#32)) (result_eq _ _ hX hT).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
